-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S64x64 : Shape := ⟨2, ![64, 64]⟩
abbrev S2x1250000 : Shape := ⟨2, ![2, 1250000]⟩
abbrev S1250000 : Shape := ⟨1, ![1250000]⟩
abbrev S16x64 : Shape := ⟨2, ![16, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_arg6 : FVec F S100000x64 .f32) (main_arg7 : FVec F S50000x64 .f32) (main_arg8 : FVec F S16x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S100000x64 .f32 := Host.absf main_arg6
  let main_cst_6 : FVec F S_ .f32 := constant S_ .f32 0x7F800000#32
  let main_v20 : FVec F S100000x64 .f32 := broadcastInDim S100000x64 ![] bcast_S_S100000x64 main_cst_6
  let main_v21 : IVec S100000x64 1 := cmpf .olt main_v19 main_v20
  let main_c_7 : IVec S_ 1 := constantI S_ 1 1#1
  let main_v22 : IVec S_ 1 := (fun x v => Host.reduce IntOp.andi x v reducesTo_S100000x64_S_d0_1 h_S_) main_v21 main_c_7
  let main_v23 : IVec S_ 1 := andi main_v18 main_v22
  let main_v24 : FVec F S50000x64 .f32 := Host.absf main_arg7
  let main_cst_8 : FVec F S_ .f32 := constant S_ .f32 0x7F800000#32
  let main_v25 : FVec F S50000x64 .f32 := broadcastInDim S50000x64 ![] bcast_S_S50000x64 main_cst_8
  let main_v26 : IVec S50000x64 1 := cmpf .olt main_v24 main_v25
  let main_c_9 : IVec S_ 1 := constantI S_ 1 1#1
  let main_v27 : IVec S_ 1 := (fun x v => Host.reduce IntOp.andi x v reducesTo_S50000x64_S_d0_1 h_S_) main_v26 main_c_9
  let main_v28 : IVec S_ 1 := andi main_v23 main_v27
  let main_v29 : FVec F S16x64 .f32 := Host.absf main_arg8
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  main_v33

def fn {F : FTy → Type} [FloatOps F] (main_arg0 : FVec F S100000x64 .f32) (main_arg1 : FVec F S50000x64 .f32) (main_arg2 : FVec F S100000x64 .f32) (main_arg3 : FVec F S64x64 .f32) (main_arg4 : IVec S2x1250000 32) (main_arg5 : IVec S1250000 32) (main_arg6 : FVec F S100000x64 .f32) (main_arg7 : FVec F S50000x64 .f32) (main_arg8 : FVec F S16x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S50000x64 : Shape := ⟨2, ![50000, 64]⟩
abbrev S64x64 : Shape := ⟨2, ![64, 64]⟩
abbrev S2x1250000 : Shape := ⟨2, ![2, 1250000]⟩
abbrev S1250000 : Shape := ⟨1, ![1250000]⟩
abbrev S16x64 : Shape := ⟨2, ![16, 64]⟩
abbrev S1x1250000 : Shape := ⟨2, ![1, 1250000]⟩
abbrev S_ : Shape := ⟨0, ![]⟩
abbrev S1250000x1 : Shape := ⟨2, ![1250000, 1]⟩
abbrev S1250000x64 : Shape := ⟨2, ![1250000, 64]⟩
abbrev S10000x64 : Shape := ⟨2, ![10000, 64]⟩
abbrev S100000 : Shape := ⟨1, ![100000]⟩
abbrev S100000x1 : Shape := ⟨2, ![100000, 1]⟩
abbrev S4000x64 : Shape := ⟨2, ![4000, 64]⟩
abbrev S4000 : Shape := ⟨1, ![4000]⟩
abbrev S4000x1 : Shape := ⟨2, ![4000, 1]⟩
abbrev S2000x64 : Shape := ⟨2, ![2000, 64]⟩
abbrev S2000 : Shape := ⟨1, ![2000]⟩
abbrev S2000x1 : Shape := ⟨2, ![2000, 1]⟩

abbrev nBuf : Space → Nat
  | .hbm => 54
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S100000x64, .f32⟩
  | .hbm, ⟨3, _⟩ => ⟨S64x64, .f32⟩
  | .hbm, ⟨4, _⟩ => ⟨S2x1250000, .i32⟩
  | .hbm, ⟨5, _⟩ => ⟨S1250000, .i32⟩
  | .hbm, ⟨6, _⟩ => ⟨S100000x64, .f32⟩
  | .hbm, ⟨7, _⟩ => ⟨S50000x64, .f32⟩
  | .hbm, ⟨8, _⟩ => ⟨S16x64, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .i32⟩
  | .hbm, ⟨14, _⟩ => ⟨S1250000, .i32⟩
  | .hbm, ⟨15, _⟩ => ⟨S1250000, .i32⟩
  | .hbm, ⟨16, _⟩ => ⟨S_, .i32⟩
  | .hbm, ⟨17, _⟩ => ⟨S1250000, .i32⟩
  | .hbm, ⟨18, _⟩ => ⟨S1250000, .i1⟩
  | .hbm, ⟨19, _⟩ => ⟨S_, .i32⟩
  | .hbm, ⟨20, _⟩ => ⟨S1250000, .i32⟩
  | .hbm, ⟨21, _⟩ => ⟨S1250000, .i32⟩
  | .hbm, ⟨22, _⟩ => ⟨S1250000, .i32⟩
  | .hbm, ⟨23, _⟩ => ⟨S1250000x1, .i32⟩
  | .hbm, ⟨24, _⟩ => ⟨S1250000x64, .f32⟩
  | .hbm, ⟨25, _⟩ => ⟨S_, .i32⟩
  | .hbm, ⟨26, _⟩ => ⟨S1250000, .i32⟩
  | .hbm, ⟨27, _⟩ => ⟨S1250000, .i1⟩
  | .hbm, ⟨28, _⟩ => ⟨S_, .i32⟩
  | .hbm, ⟨29, _⟩ => ⟨S1250000, .i32⟩
  | .hbm, ⟨30, _⟩ => ⟨S1250000, .i32⟩
  | .hbm, ⟨31, _⟩ => ⟨S1250000, .i32⟩
  | .hbm, ⟨32, _⟩ => ⟨S1250000x1, .i32⟩
  | .hbm, ⟨33, _⟩ => ⟨S1250000x64, .f32⟩
  | .hbm, ⟨34, _⟩ => ⟨S1250000x64, .f32⟩
  | .hbm, ⟨35, _⟩ => ⟨S_, .f32⟩
  | .hbm, ⟨36, _⟩ => ⟨S100000x64, .f32⟩
  | .hbm, ⟨37, _⟩ => ⟨S1250000x1, .i32⟩
  | .hbm, ⟨38, _⟩ => ⟨S100000x64, .f32⟩
  | .hbm, ⟨39, _⟩ => ⟨S_, .f32⟩
  | .hbm, ⟨40, _⟩ => ⟨S1250000, .f32⟩
  | .hbm, ⟨41, _⟩ => ⟨S_, .f32⟩
  | .hbm, ⟨42, _⟩ => ⟨S100000, .f32⟩
  | .hbm, ⟨43, _⟩ => ⟨S1250000x1, .i32⟩
  | .hbm, ⟨44, _⟩ => ⟨S100000, .f32⟩
  | .hbm, ⟨45, _⟩ => ⟨S_, .f32⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S64x64, .f32⟩
  | .local _ .vmem, ⟨11, _⟩ => ⟨S4000x64, .f32⟩
  | .local _ .vmem, ⟨12, _⟩ => ⟨S4000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S64x64, .f32⟩
  | .local _ .vmem, ⟨18, _⟩ => ⟨S2000x64, .f32⟩
  | .local _ .vmem, ⟨19, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_call0_v0 : Ref sig .tc := ⟨.hbm, 46, rfl⟩
abbrev main_call0_v1 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  reduces_S4000x64_S4000 : S4000x64.Reduces [1] S4000
  shapeCasts_S4000_S4000x1 : S4000.ShapeCasts S4000x1
  broadcasts_S4000x1_S4000x64 : S4000x1.Broadcasts S4000x64
  inb_S2000x64_S2000x64_0_0 : ∀ a, (![0, 0] : Fin 2 → Nat) a + S2000x64.size a ≤ S2000x64.size a
  h_S2000x64 : 0 < S2000x64.numel
  reduces_S2000x64_S2000 : S2000x64.Reduces [1] S2000
  shapeCasts_S2000_S2000x1 : S2000.ShapeCasts S2000x1
  broadcasts_S2000x1_S2000x64 : S2000x1.Broadcasts S2000x64
  gather_S100000x64_S1250000x1_S1250000x64_1_0_n_n_0_1_164_wf : GatherDims.WF S100000x64 S1250000x1 S1250000x64 [1] [0] [] [0] [] 1 ![1, 64]
  gather_S16x64_S1250000x1_S1250000x64_1_0_n_n_0_1_164_wf : GatherDims.WF S16x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S4000x64_S64x64_S4000x64_1_0_0_1_n_n_wf : DotDims.WF S4000x64 S64x64 S4000x64 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1250000x64.size a
  hwx0_0 : ∀ i : grid0.Coords, EltTy.bits .f32 = 32 ∨ (Rect.block (s := S1250000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S1250000x64.size a
  hwx0_1 : ∀ i : grid0.Coords, EltTy.bits .f32 = 32 ∨ (Rect.block (s := S1250000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S1250000x64.size a
  hwx0_2 : ∀ i : grid0.Coords, EltTy.bits .f32 = 32 ∨ (Rect.block (s := S1250000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .f32 = 32 ∨ (Rect.block (s := S100000x64) S4000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def gather_S16x64_S1250000x1_S1250000x64_1_0_n_n_0_1_164 : GatherDims S16x64 S1250000x1 S1250000x64 where
  offsetDims := [1]
  collapsedSliceDims := [0]
  operandBatchingDims := []
  startIndicesBatchingDims := []
  startIndexMap := [0]
  indexVectorDim := 1
  sliceSizes := ![1, 64]
  wf := gather_S16x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v12) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S64x64 : Shape := ⟨2, ![64, 64]⟩
abbrev S2x1250000 : Shape := ⟨2, ![2, 1250000]⟩
abbrev S1250000 : Shape := ⟨1, ![1250000]⟩
abbrev S16x64 : Shape := ⟨2, ![16, 64]⟩
abbrev S1x1250000 : Shape := ⟨2, ![1, 1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S50000 : Shape := ⟨1, ![50000]⟩
abbrev S50000x1 : Shape := ⟨2, ![50000, 1]⟩

abbrev nBuf : Space → Nat
  | .hbm => 98
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S100000x64, .f32⟩
  | .hbm, ⟨3, _⟩ => ⟨S64x64, .f32⟩
  | .hbm, ⟨4, _⟩ => ⟨S2x1250000, .i32⟩
  | .hbm, ⟨5, _⟩ => ⟨S1250000, .i32⟩
  | .hbm, ⟨6, _⟩ => ⟨S100000x64, .f32⟩
  | .hbm, ⟨7, _⟩ => ⟨S50000x64, .f32⟩
  | .hbm, ⟨8, _⟩ => ⟨S16x64, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .i32⟩
  | .hbm, ⟨14, _⟩ => ⟨S1250000, .i32⟩
  | .hbm, ⟨15, _⟩ => ⟨S1250000, .i32⟩
  | .hbm, ⟨16, _⟩ => ⟨S_, .i32⟩
  | .hbm, ⟨17, _⟩ => ⟨S1250000, .i32⟩
  | .hbm, ⟨18, _⟩ => ⟨S1250000, .i1⟩
  | .hbm, ⟨19, _⟩ => ⟨S_, .i32⟩
  | .hbm, ⟨20, _⟩ => ⟨S1250000, .i32⟩
  | .hbm, ⟨21, _⟩ => ⟨S1250000, .i32⟩
  | .hbm, ⟨22, _⟩ => ⟨S1250000, .i32⟩
  | .hbm, ⟨23, _⟩ => ⟨S1250000x1, .i32⟩
  | .hbm, ⟨24, _⟩ => ⟨S1250000x64, .f32⟩
  | .hbm, ⟨25, _⟩ => ⟨S_, .i32⟩
  | .hbm, ⟨26, _⟩ => ⟨S1250000, .i32⟩
  | .hbm, ⟨27, _⟩ => ⟨S1250000, .i1⟩
  | .hbm, ⟨28, _⟩ => ⟨S_, .i32⟩
  | .hbm, ⟨29, _⟩ => ⟨S1250000, .i32⟩
  | .hbm, ⟨30, _⟩ => ⟨S1250000, .i32⟩
  | .hbm, ⟨31, _⟩ => ⟨S1250000, .i32⟩
  | .hbm, ⟨32, _⟩ => ⟨S1250000x1, .i32⟩
  | .hbm, ⟨33, _⟩ => ⟨S1250000x64, .f32⟩
  | .hbm, ⟨34, _⟩ => ⟨S1250000x64, .f32⟩
  | .hbm, ⟨35, _⟩ => ⟨S_, .f32⟩
  | .hbm, ⟨36, _⟩ => ⟨S100000x64, .f32⟩
  | .hbm, ⟨37, _⟩ => ⟨S1250000x1, .i32⟩
  | .hbm, ⟨38, _⟩ => ⟨S100000x64, .f32⟩
  | .hbm, ⟨39, _⟩ => ⟨S_, .f32⟩
  | .hbm, ⟨40, _⟩ => ⟨S1250000, .f32⟩
  | .hbm, ⟨41, _⟩ => ⟨S_, .f32⟩
  | .hbm, ⟨42, _⟩ => ⟨S100000, .f32⟩
  | .hbm, ⟨43, _⟩ => ⟨S1250000x1, .i32⟩
  | .hbm, ⟨44, _⟩ => ⟨S100000, .f32⟩
  | .hbm, ⟨45, _⟩ => ⟨S_, .f32⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S64x64, .f32⟩
  | .hbm, ⟨53, _⟩ => ⟨S100000x64, .f32⟩
  | .hbm, ⟨54, _⟩ => ⟨S_, .f32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S64x64, .f32⟩
  | .hbm, ⟨69, _⟩ => ⟨S50000x64, .f32⟩
  | .hbm, ⟨70, _⟩ => ⟨S_, .f32⟩
  | .hbm, ⟨71, _⟩ => ⟨S50000, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S50000x1, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S_, .f32⟩
  | .hbm, ⟨80, _⟩ => ⟨S50000, .f32⟩
  | .hbm, ⟨81, _⟩ => ⟨S50000x1, .f32⟩
  | .hbm, ⟨82, _⟩ => ⟨S50000x64, .f32⟩
  | .hbm, ⟨83, _⟩ => ⟨S50000x64, .f32⟩
  | .hbm, ⟨84, _⟩ => ⟨S100000x64, .f32⟩
  | .hbm, ⟨85, _⟩ => ⟨S_, .f32⟩
  | .hbm, ⟨86, _⟩ => ⟨S100000, .f32⟩
  | .hbm, ⟨87, _⟩ => ⟨S100000x1, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S50000x64, .f32⟩
  | .hbm, ⟨92, _⟩ => ⟨S_, .f32⟩
  | .hbm, ⟨93, _⟩ => ⟨S50000, .f32⟩
  | .hbm, ⟨94, _⟩ => ⟨S50000x1, .f32⟩
  | .hbm, ⟨95, _⟩ => ⟨S50000x64, .f32⟩
  | .hbm, ⟨96, _⟩ => ⟨S50000x64, .f32⟩
  | .hbm, ⟨97, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_call0_v0 : Ref sig .tc := ⟨.hbm, 46, rfl⟩
abbrev main_call0_v1 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  reducesTo_S100000x64_S100000_d1 : S100000x64.ReducesTo [1] S100000
  h_S_ : 0 < S_.numel
  reducesTo_S50000x64_S50000_d1 : S50000x64.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S16x64_S1250000x1_S1250000x64_1_0_n_n_0_1_164_wf : GatherDims.WF S16x64 S1250000x1 S1250000x64 [1] [0] [] [0] [] 1 ![1, 64]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []
  dot_S50000x64_S64x64_S50000x64_1_0_0_1_n_n_wf : DotDims.WF S50000x64 S64x64 S50000x64 [1] [0] [0] [1] [] []

variable [Facts₀]

def gather_S16x64_S1250000x1_S1250000x64_1_0_n_n_0_1_164 : GatherDims S16x64 S1250000x1 S1250000x64 where
  offsetDims := [1]
  collapsedSliceDims := [0]
  operandBatchingDims := []
  startIndicesBatchingDims := []
  startIndexMap := [0]
  indexVectorDim := 1
  sliceSizes := ![1, 64]
  wf := gather_S16x64_S1250000x1_S1250000x64_1_0_n_n_0_1_164_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.AttnRows.lean ====
/-
  One row of the attention-weighted aggregation, on the extended reals.

  A row `x` of the embeddings is scored against every aspect (`logits x A a = ∑ₖ x k · A a k`), the scores are passed
  through a softmax taken from their peak (`peak`, the fold of `max` from -∞, once more against -∞), and the softmax's
  total mass `∑ₐ wₐ / ∑_b w_b` scales the row's mixture of aspects `mix r A q = ∑ₖ r k · A k q`:
  `out = mix · mass + mix`. Nothing here simplifies the mass to 1: both programs compute it, so it is kept as written.

  The lemmas below read, at a row `p` and a column, each array operation either program applies on `[n, 64]` arrays —
  the two matrix products, the row maximum, the row sums, the column casts and broadcasts — for any number of rows `n`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.AttnRows

open Idealize.ShloMosaic Idealize.ShloMosaic.ValueIdx
open scoped BigOperators

/-- The bit pattern of -∞ read as an extended real; never evaluated: both programs use the same word. -/
abbrev negInf : EReal := Ideal.ofBits .f32 0xFF800000#32

/-- A row's scores against the aspects. -/
def logits (x : Fin 64 → EReal) (A : Fin 64 → Fin 64 → EReal) (a : Fin 64) : EReal := ∑ k : Fin 64, x k * A a k
/-- The scores' maximum as both programs take it: folded from -∞, then once more against -∞. -/
def peak (s : Fin 64 → EReal) : EReal := max negInf ((Finset.univ : Finset (Fin 64)).fold max negInf s)
/-- An unnormalised softmax weight. -/
def weight (s : Fin 64 → EReal) (a : Fin 64) : EReal := Ideal.exp (s a - peak s)
/-- The total mass of the softmax over the aspects. -/
def mass (s : Fin 64 → EReal) : EReal := ∑ a : Fin 64, Ideal.div (weight s a) (∑ b : Fin 64, weight s b)
/-- A row's mixture of the aspects. -/
def mix (r : Fin 64 → EReal) (A : Fin 64 → Fin 64 → EReal) (q : Fin 64) : EReal := ∑ k : Fin 64, r k * A k q
/-- The aggregated row at column `q`. -/
def out (x r : Fin 64 → EReal) (A : Fin 64 → Fin 64 → EReal) (q : Fin 64) : EReal :=
  mix r A q * mass (logits x A) + mix r A q

/-! ## The shapes, for any number of rows -/

abbrev Rows (n : ℕ) : Shape := ⟨2, ![n, 64]⟩
abbrev Col (n : ℕ) : Shape := ⟨1, ![n]⟩
abbrev Col1 (n : ℕ) : Shape := ⟨2, ![n, 1]⟩
abbrev Sq : Shape := ⟨2, ![64, 64]⟩

variable {n : ℕ}

/-! ## A plain [n, 64] × [64, 64] product read at (p, q) -/

theorem lhs0 (i : (Rows n).Idx) (k : (DotDims.plain n 64 64).contr.Idx) :
    ((DotDims.plain n 64 64).lhsIdx i k 0).val = (i 0).val := by
  unfold DotDims.lhsIdx
  rw [dif_neg (show ¬(0 : Fin (Rows n).rank) ∈ (DotDims.plain n 64 64).lhsBatch from List.not_mem_nil),
    dif_pos (show (0 : Fin (Rows n).rank) ∈ (DotDims.plain n 64 64).lhsNonContracting from List.mem_singleton.mpr rfl)]
  rfl
theorem lhs1 (i : (Rows n).Idx) (k : (DotDims.plain n 64 64).contr.Idx) :
    ((DotDims.plain n 64 64).lhsIdx i k 1).val = (k ⟨0, show 0 < (DotDims.plain n 64 64).contr.rank from Nat.one_pos⟩).val :=
  (DotDims.plain n 64 64).lhsIdx_val_of_single rfl i k
theorem rhs0 (i : (Rows n).Idx) (k : (DotDims.plain n 64 64).contr.Idx) :
    ((DotDims.plain n 64 64).rhsIdx i k 0).val = (k ⟨0, show 0 < (DotDims.plain n 64 64).contr.rank from Nat.one_pos⟩).val :=
  (DotDims.plain n 64 64).rhsIdx_val_of_single rfl i k
theorem rhs1 (i : (Rows n).Idx) (k : (DotDims.plain n 64 64).contr.Idx) :
    ((DotDims.plain n 64 64).rhsIdx i k 1).val = (i 1).val := by
  unfold DotDims.rhsIdx
  rw [dif_neg (show ¬(1 : Fin Sq.rank) ∈ (DotDims.plain n 64 64).rhsBatch from List.not_mem_nil),
    dif_pos (show (1 : Fin Sq.rank) ∈ (DotDims.plain n 64 64).rhsNonContracting from List.mem_singleton.mpr rfl)]
  rfl

/-- The contraction of a plain product, re-indexed by the contracted coordinate. -/
theorem plain_sum (l : (Rows n).Idx → EReal) (r : Sq.Idx → EReal) (p : Fin n) (q : Fin 64) :
    ∑ k : (DotDims.plain n 64 64).contr.Idx,
        l ((DotDims.plain n 64 64).lhsIdx (ix2 p q) k) * r ((DotDims.plain n 64 64).rhsIdx (ix2 p q) k)
      = ∑ k : Fin 64, l (ix2 p k) * r (ix2 k q) := by
  rw [← Equiv.sum_comp (contrEquiv1 (DotDims.plain n 64 64) 64 rfl rfl).symm]
  refine Finset.sum_congr rfl fun k _ => ?_
  have hk := contrEquiv1_symm_val (DotDims.plain n 64 64) 64 rfl rfl k
  have el : (DotDims.plain n 64 64).lhsIdx (ix2 p q) ((contrEquiv1 (DotDims.plain n 64 64) 64 rfl rfl).symm k) = ix2 p k :=
    funext fun a => Fin.ext (by
      match a with
      | ⟨0, _⟩ => exact lhs0 _ _
      | ⟨1, _⟩ => exact (lhs1 _ _).trans hk)
  have er : (DotDims.plain n 64 64).rhsIdx (ix2 p q) ((contrEquiv1 (DotDims.plain n 64 64) 64 rfl rfl).symm k) = ix2 k q :=
    funext fun a => Fin.ext (by
      match a with
      | ⟨0, _⟩ => exact (rhs0 _ _).trans hk
      | ⟨1, _⟩ => exact rhs1 _ _)
  rw [el, er]

/-! ## Columns: a vector of row values as an [n, 1] array, spread over the 64 lanes -/

section Layout
variable {α : Type}

/-- An `[n]` array cast to `[n, 1]` reads, at `(p, u)`, the operand at `p`. -/
theorem shapeCast_col (x : (Col n).Idx → α) (h : (Col n).ShapeCasts (Col1 n)) (p : Fin n) (u : Fin 1) :
    shapeCast (Col1 n) x h (ix2 p u) = x (ix1 p) :=
  shapeCast_apply x h _ _ (by
    have hu : u.val = 0 := by omega
    rw [Shape.rowMajor_val_two, Shape.rowMajor_val_one]
    show p.val = p.val * 1 + u.val
    omega)

/-- An `[n, 1]` array broadcast to `[n, 64]` reads, at `(p, c)`, the operand's row `p`. -/
theorem broadcastTo_col (v : (Col1 n).Idx → α) (h : (Col1 n).Broadcasts (Rows n)) (p : Fin n) (c : Fin 64) :
    broadcastTo (Rows n) v h (ix2 p c) = v (ix2 p (0 : Fin 1)) := by
  refine broadcastTo_apply v h (ix2 p c) (ix2 p (0 : Fin 1)) fun ax => ?_
  match ax with
  | ⟨0, _⟩ =>
    show p.val = if n = 1 then 0 else p.val
    split
    · have := p.isLt; omega
    · rfl
  | ⟨1, _⟩ =>
    show (0 : ℕ) = if (1 : ℕ) = 1 then 0 else c.val
    rw [if_pos rfl]

/-- The host's form of the first: `broadcast_in_dim` of `[n]` along axis 0 into `[n, 1]`. -/
theorem bcastInDim_col (x : (Col n).Idx → α) (h : (Col n).BroadcastsInDim (Col1 n) (![0] : Fin 1 → Fin (Col1 n).rank))
    (p : Fin n) (u : Fin 1) : broadcastInDim (Col1 n) ![0] h x (ix2 p u) = x (ix1 p) :=
  broadcastInDim_apply _ h x (ix2 p u) (ix1 p) fun ax => by
    match ax with
    | ⟨0, _⟩ =>
      show p.val = if n = 1 then 0 else p.val
      split
      · have := p.isLt; omega
      · rfl

/-- The host's form of the second: `broadcast_in_dim` of `[n, 1]` along both axes into `[n, 64]`. -/
theorem bcastInDim_lanes (v : (Col1 n).Idx → α) (h : (Col1 n).BroadcastsInDim (Rows n) (![0, 1] : Fin 2 → Fin (Rows n).rank))
    (p : Fin n) (c : Fin 64) : broadcastInDim (Rows n) ![0, 1] h v (ix2 p c) = v (ix2 p (0 : Fin 1)) :=
  broadcastInDim_apply _ h v (ix2 p c) (ix2 p (0 : Fin 1)) fun ax => by
    match ax with
    | ⟨0, _⟩ =>
      show p.val = if n = 1 then 0 else p.val
      split
      · have := p.isLt; omega
      · rfl
    | ⟨1, _⟩ =>
      show (0 : ℕ) = if (1 : ℕ) = 1 then 0 else c.val
      rw [if_pos rfl]

end Layout

/-! ## Reductions along a row -/

/-- A row index with the lane coordinate put back. -/
theorem lift_row (h : (Rows n).Reduces [1] (Col n)) (p : Fin n) (k : Fin ((Rows n).size 1)) :
    h.lift (ix1 p) k = ix2 p (⟨k.val, k.isLt⟩ : Fin 64) := by
  funext c; apply Fin.ext
  match c with
  | ⟨0, _⟩ => rfl
  | ⟨1, _⟩ => rfl

/-- The row maximum a kernel takes with `vector.multi_reduction <maximumf>` from -∞. -/
theorem rowMax_vector (src : FVec Ideal (Rows n) .f32) (h : (Rows n).Reduces [1] (Col n)) (hφ : FKind.Formats .f32)
    (hacc : (0xFF800000#32 : BitVec 32) = 0xFF800000#32) (p : Fin n) :
    multiReduction .maximumf [1] (Col n) src 0xFF800000#32 h hφ hacc (ix1 p)
      = (Finset.univ : Finset (Fin 64)).fold max negInf (fun a => src (ix2 p a)) := by
  refine (Ideal.multiReduction_maximumf_single src 0xFF800000#32 h hφ hacc (ix1 p)).trans ?_
  exact congrArg (fun f => (Finset.univ : Finset (Fin 64)).fold max negInf f) (funext fun k => congrArg src (lift_row h p k))

/-- The row sum a kernel takes with `vector.multi_reduction <add>` from 0. -/
theorem rowSum_vector (src : FVec Ideal (Rows n) .f32) (h : (Rows n).Reduces [1] (Col n)) (hφ : FKind.Formats .f32)
    (hacc : (0x00000000#32 : BitVec 32) = 0x00000000#32) (p : Fin n) :
    multiReduction .add [1] (Col n) src 0x00000000#32 h hφ hacc (ix1 p) = ∑ a : Fin 64, src (ix2 p a) := by
  refine (Ideal.multiReduction_add_single src 0x00000000#32 h hφ hacc (ix1 p)).trans ?_
  exact Finset.sum_congr rfl fun k _ => congrArg src (lift_row h p k)

/-- The row maximum the host takes with `stablehlo.reduce` (maximum) from -∞. -/
theorem rowMax_host (x : FVec Ideal (Rows n) .f32) (h' : (Rows n).ReducesTo [1] (Col n)) (h : (Rows n).Reduces [1] (Col n))
    (hu : 0 < (⟨0, ![]⟩ : Shape).numel) (p : Fin n) :
    Host.reduce FloatOps.maximumf x (constant (F := Ideal) (⟨0, ![]⟩ : Shape) .f32 0xFF800000#32) h' hu (ix1 p)
      = (Finset.univ : Finset (Fin 64)).fold max negInf (fun a => x (ix2 p a)) := by
  rw [Host.reduce_eq_fold_single FloatOps.maximumf x _ h' h hu]
  exact congrArg (fun f => (Finset.univ : Finset (Fin 64)).fold max negInf f) (funext fun k => congrArg x (lift_row h p k))

/-- The row sum the host takes with `stablehlo.reduce` (add) from 0. -/
theorem rowSum_host (x : FVec Ideal (Rows n) .f32) (h' : (Rows n).ReducesTo [1] (Col n)) (h : (Rows n).Reduces [1] (Col n))
    (hu : 0 < (⟨0, ![]⟩ : Shape).numel) (p : Fin n) :
    Host.reduceAdd x (constant (F := Ideal) (⟨0, ![]⟩ : Shape) .f32 0x00000000#32) h' hu (ix1 p) = ∑ a : Fin 64, x (ix2 p a) := by
  simp only [Host.reduceAdd, Ideal.hostReduceAdd_def]
  rw [Ideal.hostReduceAdd_single h' h]
  show Ideal.ofBits .f32 0x00000000#32 + _ = _
  rw [Ideal.ofBits_zero_f32, zero_add]
  exact Finset.sum_congr rfl fun k _ => congrArg x (lift_row h p k)

/-! ## The kernel's body on a block of rows -/

section Kernel
variable (hb : FTy.bits .bf16 < FTy.bits .f32) (htr : Sq.Transposes [1, 0] Sq) (hred : (Rows n).Reduces [1] (Col n))
  (hsc : (Col n).ShapeCasts (Col1 n)) (hbc : (Col1 n).Broadcasts (Rows n))

/-- The block's scores: the rows (narrowed) times the transposed aspects (narrowed), into a zero accumulator. -/
def scoresK (v0 : FVec Ideal (Rows n) .f32) (v2 : FVec Ideal Sq .f32) : FVec Ideal (Rows n) .f32 :=
  matmul (DotDims.plain n 64 64) none (truncf .bf16 v0 hb) (transpose Sq [1, 0] (truncf .bf16 v2 hb) htr)
    (constant (Rows n) .f32 0x00000000#32)

/-- The block's mixtures: the interaction rows (narrowed) times the aspects (narrowed). -/
def mixK (v19 : FVec Ideal (Rows n) .f32) (v2 : FVec Ideal Sq .f32) : FVec Ideal (Rows n) .f32 :=
  matmul (DotDims.plain n 64 64) none (truncf .bf16 v19 hb) (truncf .bf16 v2 hb) (constant (Rows n) .f32 0x00000000#32)

/-- The softmax weights of a block of scores, as the kernel's vector operations compute them. -/
def weightsK (S : FVec Ideal (Rows n) .f32) : FVec Ideal (Rows n) .f32 :=
  exp (subf S (broadcastTo (Rows n) (shapeCast (Col1 n)
    (maximumf (broadcast (Col n) (Scalar.ofBits (F := Ideal) .f32 0xFF800000#32))
      (multiReduction .maximumf [1] (Col n) S 0xFF800000#32 hred (.inl rfl) rfl)) hsc) hbc))

/-- The softmax's mass per row, as an `[n, 1]` column. -/
def massK (S : FVec Ideal (Rows n) .f32) : FVec Ideal (Col1 n) .f32 :=
  shapeCast (Col1 n) (multiReduction .add [1] (Col n)
    (divf (weightsK hred hsc hbc S) (broadcastTo (Rows n) (shapeCast (Col1 n)
      (multiReduction .add [1] (Col n) (weightsK hred hsc hbc S) 0x00000000#32 hred (.inl rfl) rfl) hsc) hbc))
    0x00000000#32 hred (.inl rfl) rfl) hsc

/-- What the kernel stores for a block of `n` rows. -/
def kernelBody (v0 : FVec Ideal (Rows n) .f32) (v2 : FVec Ideal Sq .f32) (v19 : FVec Ideal (Rows n) .f32) :
    FVec Ideal (Rows n) .f32 :=
  addf (mulf (mixK hb v19 v2) (broadcastTo (Rows n) (massK hred hsc hbc (scoresK hb htr v0 v2)) hbc)) (mixK hb v19 v2)

theorem scoresK_apply (v0 : FVec Ideal (Rows n) .f32) (v2 : FVec Ideal Sq .f32) (p : Fin n) (a : Fin 64) :
    scoresK hb htr v0 v2 (ix2 p a) = logits (fun k => v0 (ix2 p k)) (fun a k => v2 (ix2 a k)) a := by
  unfold scoresK logits
  simp only [matmul]
  rw [Ideal.matmul_constant_zero_apply, plain_sum]
  refine Finset.sum_congr rfl fun k _ => ?_
  rw [transpose_ix2_apply]
  rfl

theorem mixK_apply (v19 : FVec Ideal (Rows n) .f32) (v2 : FVec Ideal Sq .f32) (p : Fin n) (q : Fin 64) :
    mixK hb v19 v2 (ix2 p q) = mix (fun k => v19 (ix2 p k)) (fun a k => v2 (ix2 a k)) q := by
  unfold mixK mix
  simp only [matmul]
  rw [Ideal.matmul_constant_zero_apply, plain_sum]
  rfl

theorem weightsK_apply (S : FVec Ideal (Rows n) .f32) (p : Fin n) (a : Fin 64) :
    weightsK hred hsc hbc S (ix2 p a) = weight (fun a => S (ix2 p a)) a := by
  unfold weightsK weight peak
  have hm : broadcastTo (Rows n) (shapeCast (Col1 n)
      (maximumf (broadcast (Col n) (Scalar.ofBits (F := Ideal) .f32 0xFF800000#32))
        (multiReduction .maximumf [1] (Col n) S 0xFF800000#32 hred (.inl rfl) rfl)) hsc) hbc (ix2 p a)
      = max negInf ((Finset.univ : Finset (Fin 64)).fold max negInf (fun a => S (ix2 p a))) :=
    (broadcastTo_col _ hbc p a).trans ((shapeCast_col _ hsc p 0).trans
      (congrArg (max negInf) (rowMax_vector S hred (.inl rfl) rfl p)))
  exact congrArg (fun t => Ideal.exp (S (ix2 p a) - t)) hm

theorem massK_apply (S : FVec Ideal (Rows n) .f32) (p : Fin n) (u : Fin 1) :
    massK hred hsc hbc S (ix2 p u) = mass (fun a => S (ix2 p a)) := by
  unfold massK mass
  refine (shapeCast_col _ hsc p u).trans ((rowSum_vector _ hred (.inl rfl) rfl p).trans ?_)
  refine Finset.sum_congr rfl fun a _ => ?_
  have hden : broadcastTo (Rows n) (shapeCast (Col1 n)
      (multiReduction .add [1] (Col n) (weightsK hred hsc hbc S) 0x00000000#32 hred (.inl rfl) rfl) hsc) hbc (ix2 p a)
      = ∑ b : Fin 64, weight (fun a => S (ix2 p a)) b :=
    (broadcastTo_col _ hbc p a).trans ((shapeCast_col _ hsc p 0).trans
      ((rowSum_vector _ hred (.inl rfl) rfl p).trans (Finset.sum_congr rfl fun b _ => weightsK_apply hred hsc hbc S p b)))
  exact congrArg₂ Ideal.div (weightsK_apply hred hsc hbc S p a) hden

/-- The stored block at row `p`, column `q`: the aggregated row of that row's embeddings and interactions. -/
theorem kernelBody_apply (v0 : FVec Ideal (Rows n) .f32) (v2 : FVec Ideal Sq .f32) (v19 : FVec Ideal (Rows n) .f32)
    (p : Fin n) (q : Fin 64) :
    kernelBody hb htr hred hsc hbc v0 v2 v19 (ix2 p q)
      = out (fun k => v0 (ix2 p k)) (fun k => v19 (ix2 p k)) (fun a k => v2 (ix2 a k)) q := by
  unfold kernelBody out
  have h1 := mixK_apply hb v19 v2 p q
  have h2 : broadcastTo (Rows n) (massK hred hsc hbc (scoresK hb htr v0 v2)) hbc (ix2 p q)
      = mass (logits (fun k => v0 (ix2 p k)) (fun a k => v2 (ix2 a k))) :=
    (broadcastTo_col _ hbc p q).trans ((massK_apply hred hsc hbc _ p 0).trans
      (congrArg mass (funext fun a => scoresK_apply hb htr v0 v2 p a)))
  exact congrArg₂ (fun A B : EReal => A * B + A) h1 h2

end Kernel

/-! ## The reference's operations on all `n` rows -/

section Host
variable (htr : Sq.Transposes [1, 0] Sq) (hrt : (Rows n).ReducesTo [1] (Col n)) (hred : (Rows n).Reduces [1] (Col n))
  (h0 : 0 < (⟨0, ![]⟩ : Shape).numel)
  (hb0 : (⟨0, ![]⟩ : Shape).BroadcastsInDim (Col n) (![] : Fin 0 → Fin (Col n).rank))
  (hb1 : (Col n).BroadcastsInDim (Col1 n) (![0] : Fin 1 → Fin (Col1 n).rank))
  (hb2 : (Col1 n).BroadcastsInDim (Rows n) (![0, 1] : Fin 2 → Fin (Rows n).rank))

/-- All rows' scores: the embeddings times the transposed aspects. -/
def scoresH (x : FVec Ideal (Rows n) .f32) (A : FVec Ideal Sq .f32) : FVec Ideal (Rows n) .f32 :=
  Host.dotGeneral (DotDims.plain n 64 64) none x (transpose Sq [1, 0] A htr)

/-- All rows' mixtures: the interactions times the aspects. -/
def mixH (r : FVec Ideal (Rows n) .f32) (A : FVec Ideal Sq .f32) : FVec Ideal (Rows n) .f32 :=
  Host.dotGeneral (DotDims.plain n 64 64) none r A

/-- A value per row, kept as a column and spread over the lanes. -/
def spread (v : FVec Ideal (Col n) .f32) : FVec Ideal (Rows n) .f32 :=
  broadcastInDim (Rows n) ![0, 1] hb2 (broadcastInDim (Col1 n) ![0] hb1 v)

/-- The softmax weights as the host's operations compute them. -/
def weightsH (S : FVec Ideal (Rows n) .f32) : FVec Ideal (Rows n) .f32 :=
  Host.exp (subf S (spread hb1 hb2
    (maximumf (broadcastInDim (Col n) ![] hb0 (constant (F := Ideal) (⟨0, ![]⟩ : Shape) .f32 0xFF800000#32))
      (Host.reduce FloatOps.maximumf S (constant (F := Ideal) (⟨0, ![]⟩ : Shape) .f32 0xFF800000#32) hrt h0))))

/-- The softmax's mass per row. -/
def massH (S : FVec Ideal (Rows n) .f32) : FVec Ideal (Col n) .f32 :=
  Host.reduceAdd (Host.divf (weightsH hrt h0 hb0 hb1 hb2 S)
      (spread hb1 hb2 (Host.reduceAdd (weightsH hrt h0 hb0 hb1 hb2 S)
        (constant (F := Ideal) (⟨0, ![]⟩ : Shape) .f32 0x00000000#32) hrt h0)))
    (constant (F := Ideal) (⟨0, ![]⟩ : Shape) .f32 0x00000000#32) hrt h0

/-- What the reference returns for `n` rows. -/
def refBody (x : FVec Ideal (Rows n) .f32) (A : FVec Ideal Sq .f32) (r : FVec Ideal (Rows n) .f32) : FVec Ideal (Rows n) .f32 :=
  addf (mulf (mixH r A) (spread hb1 hb2 (massH hrt h0 hb0 hb1 hb2 (scoresH htr x A)))) (mixH r A)

theorem spread_apply (v : FVec Ideal (Col n) .f32) (p : Fin n) (c : Fin 64) : spread hb1 hb2 v (ix2 p c) = v (ix1 p) :=
  (bcastInDim_lanes _ hb2 p c).trans (bcastInDim_col v hb1 p 0)

theorem scoresH_apply (x : FVec Ideal (Rows n) .f32) (A : FVec Ideal Sq .f32) (p : Fin n) (a : Fin 64) :
    scoresH htr x A (ix2 p a) = logits (fun k => x (ix2 p k)) (fun a k => A (ix2 a k)) a := by
  unfold scoresH logits
  simp only [Host.dotGeneral]
  rw [Ideal.dotGeneral_apply, plain_sum]
  refine Finset.sum_congr rfl fun k _ => ?_
  rw [transpose_ix2_apply]

theorem mixH_apply (r : FVec Ideal (Rows n) .f32) (A : FVec Ideal Sq .f32) (p : Fin n) (q : Fin 64) :
    mixH r A (ix2 p q) = mix (fun k => r (ix2 p k)) (fun a k => A (ix2 a k)) q := by
  unfold mixH mix
  simp only [Host.dotGeneral]
  rw [Ideal.dotGeneral_apply, plain_sum]

include hred in
theorem weightsH_apply (S : FVec Ideal (Rows n) .f32) (p : Fin n) (a : Fin 64) :
    weightsH hrt h0 hb0 hb1 hb2 S (ix2 p a) = weight (fun a => S (ix2 p a)) a := by
  unfold weightsH weight peak
  have hm : spread hb1 hb2
      (maximumf (broadcastInDim (Col n) ![] hb0 (constant (F := Ideal) (⟨0, ![]⟩ : Shape) .f32 0xFF800000#32))
        (Host.reduce FloatOps.maximumf S (constant (F := Ideal) (⟨0, ![]⟩ : Shape) .f32 0xFF800000#32) hrt h0)) (ix2 p a)
      = max negInf ((Finset.univ : Finset (Fin 64)).fold max negInf (fun a => S (ix2 p a))) :=
    (spread_apply hb1 hb2 _ p a).trans (congrArg (max negInf) (rowMax_host S hrt hred h0 p))
  exact congrArg (fun t => Ideal.exp (S (ix2 p a) - t)) hm

include hred in
theorem massH_apply (S : FVec Ideal (Rows n) .f32) (p : Fin n) :
    massH hrt h0 hb0 hb1 hb2 S (ix1 p) = mass (fun a => S (ix2 p a)) := by
  unfold massH mass
  refine (rowSum_host _ hrt hred h0 p).trans ?_
  refine Finset.sum_congr rfl fun a _ => ?_
  have hden : spread hb1 hb2 (Host.reduceAdd (weightsH hrt h0 hb0 hb1 hb2 S)
        (constant (F := Ideal) (⟨0, ![]⟩ : Shape) .f32 0x00000000#32) hrt h0) (ix2 p a)
      = ∑ b : Fin 64, weight (fun a => S (ix2 p a)) b :=
    (spread_apply hb1 hb2 _ p a).trans ((rowSum_host _ hrt hred h0 p).trans
      (Finset.sum_congr rfl fun b _ => weightsH_apply hrt hred h0 hb0 hb1 hb2 S p b))
  exact congrArg₂ Ideal.div (weightsH_apply hrt hred h0 hb0 hb1 hb2 S p a) hden

include hred in
/-- The reference's result at row `p`, column `q`: the same aggregated row. -/
theorem refBody_apply (x : FVec Ideal (Rows n) .f32) (A : FVec Ideal Sq .f32) (r : FVec Ideal (Rows n) .f32)
    (p : Fin n) (q : Fin 64) :
    refBody htr hrt h0 hb0 hb1 hb2 x A r (ix2 p q)
      = out (fun k => x (ix2 p k)) (fun k => r (ix2 p k)) (fun a k => A (ix2 a k)) q := by
  unfold refBody out
  have h1 := mixH_apply r A p q
  have h2 : spread hb1 hb2 (massH hrt h0 hb0 hb1 hb2 (scoresH htr x A)) (ix2 p q)
      = mass (logits (fun k => x (ix2 p k)) (fun a k => A (ix2 a k))) :=
    (spread_apply hb1 hb2 _ p q).trans ((massH_apply hrt hred h0 hb0 hb1 hb2 _ p).trans
      (congrArg mass (funext fun a => scoresH_apply htr x A p a)))
  exact congrArg₂ (fun A B : EReal => A * B + A) h1 h2

end Host

/-! ## The whole array: every row aggregated -/

/-- The aggregation of all `N` rows: entry `(r, q)` is the aggregated row `r` of the embeddings `x` and interactions
    `w` against the aspects `A`, at column `q`. -/
def attn {N : ℕ} (x w : (Rows N).Idx → EReal) (A : Sq.Idx → EReal) : (Rows N).Idx → EReal := fun i =>
  out (fun k => x (ix2 (⟨(i 0).val, idx2_lt0 i⟩ : Fin N) k)) (fun k => w (ix2 (⟨(i 0).val, idx2_lt0 i⟩ : Fin N) k))
    (fun a k => A (ix2 a k)) (⟨(i 1).val, idx2_lt1 i⟩ : Fin 64)

theorem attn_apply {N : ℕ} (x w : (Rows N).Idx → EReal) (A : Sq.Idx → EReal) (r : Fin N) (q : Fin 64) :
    attn x w A (ix2 r q) = out (fun k => x (ix2 r k)) (fun k => w (ix2 r k)) (fun a k => A (ix2 a k)) q := rfl

/-- A block of `n` rows whose row `p` is row `e p` of the `N`-row arrays: the kernel's stored block is the block of the
    whole aggregation. -/
theorem kernelBody_rows {N : ℕ} (hb : FTy.bits .bf16 < FTy.bits .f32) (htr : Sq.Transposes [1, 0] Sq)
    (hred : (Rows n).Reduces [1] (Col n)) (hsc : (Col n).ShapeCasts (Col1 n)) (hbc : (Col1 n).Broadcasts (Rows n))
    (x w : (Rows N).Idx → EReal) (A : Sq.Idx → EReal) (e : Fin n → Fin N)
    (v0 : FVec Ideal (Rows n) .f32) (v2 : FVec Ideal Sq .f32) (v19 : FVec Ideal (Rows n) .f32)
    (h0 : ∀ p k, v0 (ix2 p k) = x (ix2 (e p) k)) (h19 : ∀ p k, v19 (ix2 p k) = w (ix2 (e p) k))
    (h2 : ∀ a k, v2 (ix2 a k) = A (ix2 a k)) (p : Fin n) (q : Fin 64) :
    kernelBody hb htr hred hsc hbc v0 v2 v19 (ix2 p q) = attn x w A (ix2 (e p) q) := by
  rw [kernelBody_apply, attn_apply]
  rw [show (fun k => v0 (ix2 p k)) = fun k => x (ix2 (e p) k) from funext (h0 p),
    show (fun k => v19 (ix2 p k)) = fun k => w (ix2 (e p) k) from funext (h19 p),
    show (fun a k => v2 (ix2 a k)) = fun a k => A (ix2 a k) from funext fun a => funext (h2 a)]

end Cert.AttnRows

end
-- ==== Proof.UserRows.lean ====
/-
  Region 1 (the user path): what the second pallas_call leaves in its result array, as ONE function of the arrays the
  region finds at entry. Grid point `t` works on the 4000 rows from `4000·t` on: its two row windows are those rows of the
  embeddings and of the interactions, its third window is the whole aspect table, and it writes back those rows of the
  result. Each stored row is the aggregated row of Proof/AttnRows.lean, so the 25 write-backs tile the array with the
  aggregation of all 100000 rows.
-/
import proofs.«178166_j15212774163210_1_alg».proof.Proof.Gen.KernelIdeal.Frame
import proofs.«178166_j15212774163210_1_alg».proof.Proof.AttnRows
import Idealize.ShloMosaic.Lib.Pipeline.Value
import Idealize.ShloMosaic.Lib.ValueIdx

set_option maxRecDepth 16384

noncomputable section

namespace Cert.KernelIdeal.UserRows

open Cert.KernelIdeal Cert.KernelIdeal.Gen Cert.AttnRows
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the block aggregation of Proof/AttnRows.lean at 4000 rows. -/
theorem pay_eq (x0 : Vec Ideal S4000x64 .f32) (x2 : Vec Ideal S64x64 .f32) (x19 : Vec Ideal S4000x64 .f32) :
    k1_pay1 (F := Ideal) x0 x2 x19
      = kernelBody (n := 4000) bitsLt_bf16_f32 transposes_S64x64_p1_0_S64x64 reduces_S4000x64_S4000
          shapeCasts_S4000_S4000x1 broadcasts_S4000x1_S4000x64 x0 x2 x19 := rfl

/-- The printed index maps over the grid: the three row windows sit at block `t` of axis 0, the aspect window at the
    origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem N_eq : cfg1.N = 25 := rfl

/-- Row `p` of point `t`'s block is row `4000·t + p` of the array. -/
def rowOf (t : Fin cfg1.N) (p : Fin 4000) : Fin 100000 :=
  ⟨t.val * 4000 + p.val, by have ht : t.val < 25 := t.isLt; have := p.isLt; omega⟩

/-- The three input blocks at point `t`, typed at their literal shapes. -/
abbrev xblk (c : Dev nD) (t : Fin cfg1.N) : FVec Ideal (Rows 4000) .f32 := iblk1 V c 0 t
abbrev wblk (c : Dev nD) (t : Fin cfg1.N) : FVec Ideal (Rows 4000) .f32 := iblk1 V c 1 t
abbrev ablk (c : Dev nD) (t : Fin cfg1.N) : FVec Ideal Sq .f32 := iblk1 V c 2 t

/-- The embeddings' block: row `p` is row `4000·t + p` of the array. -/
theorem xblk_apply (c : Dev nD) (t : Fin cfg1.N) (p : Fin 4000) (k : Fin 64) :
    xblk V c t (ix2 p k) = (V c main_arg2 : (Rows 100000).Idx → EReal) (ix2 (rowOf t p) k) := by
  obtain ⟨e0, e1, -⟩ := idx_facts t
  unfold xblk iblk1
  rw [View.read_apply]
  show V c main_arg2 _ = V c main_arg2 _
  congr 1
  funext a
  apply Fin.ext
  match a with
  | ⟨0, _⟩ => show win1_0.index t 0 * 4000 + 1 * p.val = t.val * 4000 + p.val; rw [e0]; omega
  | ⟨1, _⟩ => show win1_0.index t 1 * 64 + 1 * k.val = k.val; rw [e1]; omega

/-- The interactions' block likewise. -/
theorem wblk_apply (c : Dev nD) (t : Fin cfg1.N) (p : Fin 4000) (k : Fin 64) :
    wblk V c t (ix2 p k) = (V c main_arg6 : (Rows 100000).Idx → EReal) (ix2 (rowOf t p) k) := by
  obtain ⟨-, -, e0, e1, -⟩ := idx_facts t
  unfold wblk iblk1
  rw [View.read_apply]
  show V c main_arg6 _ = V c main_arg6 _
  congr 1
  funext a
  apply Fin.ext
  match a with
  | ⟨0, _⟩ => show win1_1.index t 0 * 4000 + 1 * p.val = t.val * 4000 + p.val; rw [e0]; omega
  | ⟨1, _⟩ => show win1_1.index t 1 * 64 + 1 * k.val = k.val; rw [e1]; omega

/-- The aspect window is the whole table at every point. -/
theorem ablk_apply (c : Dev nD) (t : Fin cfg1.N) (a k : Fin 64) :
    ablk V c t (ix2 a k) = (V c main_arg3 : Sq.Idx → EReal) (ix2 a k) := by
  obtain ⟨-, -, -, -, e0, e1, -⟩ := idx_facts t
  unfold ablk iblk1
  rw [View.read_apply]
  show V c main_arg3 _ = V c main_arg3 _
  congr 1
  funext b
  apply Fin.ext
  match b with
  | ⟨0, _⟩ => show win1_2.index t 0 * 64 + 1 * a.val = a.val; rw [e0]; omega
  | ⟨1, _⟩ => show win1_2.index t 1 * 64 + 1 * k.val = k.val; rw [e1]; omega

/-- WHAT POINT `t` WRITES BACK is block `t` of the aggregation of the arrays the region finds. -/
theorem flushed_eq (c : Dev nD) (t : Fin cfg1.N) :
    (dat1 V c).flushed 3 t
      = ((cfg1.win 3).blk t).view.read (Elt Ideal) (attn (N := 100000) (V c main_arg2) (V c main_arg6) (V c main_arg3)) := by
  show (cfg1.win 3).cut (grid1.coords t) ((dat1 V c).after 3 t) = _
  rw [after1_3]
  unfold out1_3
  rw [View.canon_unit_zero hz]
  simp only [View.ld_unit_zero (S := S4000x64) hz, View.ld_unit_zero (S := S64x64) hz]
  rw [pay_eq]
  obtain ⟨-, -, -, -, -, -, e6, e7⟩ := idx_facts t
  funext j
  obtain ⟨p, q, rfl⟩ : ∃ (p : Fin 4000) (q : Fin 64), j = ix2 p q := ⟨j 0, j 1, eq_ix2 j⟩
  refine (kernelBody_rows (N := 100000) bitsLt_bf16_f32 transposes_S64x64_p1_0_S64x64 reduces_S4000x64_S4000
    shapeCasts_S4000_S4000x1 broadcasts_S4000x1_S4000x64 (V c main_arg2) (V c main_arg6) (V c main_arg3) (rowOf t)
    (xblk V c t) (ablk V c t) (wblk V c t) (xblk_apply V c t) (wblk_apply V c t) (ablk_apply V c t) p q).trans ?_
  rw [View.read_apply]
  refine congrArg (attn (N := 100000) (V c main_arg2) (V c main_arg6) (V c main_arg3)) ?_
  funext a
  apply Fin.ext
  match a with
  | ⟨0, _⟩ => show t.val * 4000 + p.val = win1_3.index t 0 * 4000 + 1 * p.val; rw [e6]; omega
  | ⟨1, _⟩ => show q.val = win1_3.index t 1 * 64 + 1 * q.val; rw [e7]; omega

/-- An index of the array is in point `t`'s block iff each coordinate is in the block's range on its axis. -/
theorem mem_blk (t : Fin cfg1.N) (i : S100000x64.Idx) :
    i ∈ ((cfg1.win 3).blk t).view.set ↔ ∀ a : Fin 2, win1_3.index t a * S4000x64.size a ≤ (i a).val
      ∧ (i a).val < win1_3.index t a * S4000x64.size a + S4000x64.size a := by
  show i ∈ ((View.whole main_v32).slice (win1_3.rect t)).set ↔ _
  rw [View.set_slice_whole, Rect.mem_set_unit]
  exact Iff.rfl

/-- Every row is in the block of the point `row / 4000`. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have ht : (i 0).val / 4000 < cfg1.N := by rw [N_eq]; omega
  refine ⟨⟨(i 0).val / 4000, ht⟩, flush1_3 _, ?_⟩
  rw [mem_blk]
  obtain ⟨-, -, -, -, -, -, e6, e7⟩ := idx_facts ⟨(i 0).val / 4000, ht⟩
  intro a
  match a with
  | ⟨0, _⟩ =>
    show win1_3.index ⟨(i 0).val / 4000, ht⟩ 0 * 4000 ≤ (i 0).val ∧ (i 0).val < win1_3.index ⟨(i 0).val / 4000, ht⟩ 0 * 4000 + 4000
    rw [e6]; show (i 0).val / 4000 * 4000 ≤ (i 0).val ∧ (i 0).val < (i 0).val / 4000 * 4000 + 4000; omega
  | ⟨1, _⟩ =>
    show win1_3.index ⟨(i 0).val / 4000, ht⟩ 1 * 64 ≤ (i 1).val ∧ (i 1).val < win1_3.index ⟨(i 0).val / 4000, ht⟩ 1 * 64 + 64
    rw [e7]; omega

/-- THE RESULT ARRAY after the region: the aggregation of all the rows the region found. -/
theorem final (c : Dev nD) :
    (dat1 V c).arrAt 3 cfg1.N = attn (N := 100000) (V c main_arg2) (V c main_arg6) (V c main_arg3) :=
  (dat1 V c).arrAt_eq_of_cover 3 _ (fun t _ => flushed_eq V c t) cover

end Cert.KernelIdeal.UserRows

end
-- ==== Proof.KernelValue.lean ====
/-
  The idealized kernel's two row aggregations as functions of its arguments.

  The fold of @main's segments (host stretch, edge product, host stretch, user rows, item rows) is read at the user and
  item result buffers. Both regions take their inputs straight from the arguments, which no segment writes: an input
  window's array leaves a region as it entered it.
-/
import proofs.«178166_j15212774163210_1_alg».proof.Proof.RunNamed
import proofs.«178166_j15212774163210_1_alg».proof.Proof.UserRows
import proofs.«178166_j15212774163210_1_alg».proof.Proof.ItemRows

set_option maxRecDepth 16384

noncomputable section

namespace Cert.KernelIdeal.Results

open Cert.KernelIdeal Cert.KernelIdeal.Gen Cert.AttnRows
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments as each region finds them -/

/-- An input window's array is left as the region found it. -/
theorem W7_in0 (c : Dev nD) : W7 m ρ c (Proc.devRef .tc main_arg1) = W6 m ρ c (Proc.devRef .tc main_arg1) :=
  (W7_arr m ρ c 0).trans (((dat2 (V6 m ρ) c).arrAt_in 0 rfl _).trans (A_eq2 (V6 m ρ) c 0))
theorem W7_in1 (c : Dev nD) : W7 m ρ c (Proc.devRef .tc main_arg7) = W6 m ρ c (Proc.devRef .tc main_arg7) :=
  (W7_arr m ρ c 1).trans (((dat2 (V6 m ρ) c).arrAt_in 1 rfl _).trans (A_eq2 (V6 m ρ) c 1))
theorem W7_in2 (c : Dev nD) : W7 m ρ c (Proc.devRef .tc main_arg3) = W6 m ρ c (Proc.devRef .tc main_arg3) :=
  (W7_arr m ρ c 2).trans (((dat2 (V6 m ρ) c).arrAt_in 2 rfl _).trans (A_eq2 (V6 m ρ) c 2))
theorem W6_in0 (c : Dev nD) : W6 m ρ c (Proc.devRef .tc main_arg2) = W5 m ρ c (Proc.devRef .tc main_arg2) :=
  (W6_arr m ρ c 0).trans (((dat1 (V5 m ρ) c).arrAt_in 0 rfl _).trans (A_eq1 (V5 m ρ) c 0))
theorem W6_in1 (c : Dev nD) : W6 m ρ c (Proc.devRef .tc main_arg6) = W5 m ρ c (Proc.devRef .tc main_arg6) :=
  (W6_arr m ρ c 1).trans (((dat1 (V5 m ρ) c).arrAt_in 1 rfl _).trans (A_eq1 (V5 m ρ) c 1))
theorem W6_in2 (c : Dev nD) : W6 m ρ c (Proc.devRef .tc main_arg3) = W5 m ρ c (Proc.devRef .tc main_arg3) :=
  (W6_arr m ρ c 2).trans (((dat1 (V5 m ρ) c).arrAt_in 2 rfl _).trans (A_eq1 (V5 m ρ) c 2))

theorem V6_arg1 (c : Dev nD) : V6 m ρ c main_arg1 = m ((c : Thread nD τ).loc main_arg1) :=
  (W7_in0 m ρ c).symm.trans (W7_main_arg1 m ρ c)
theorem V6_arg7 (c : Dev nD) : V6 m ρ c main_arg7 = m ((c : Thread nD τ).loc main_arg7) :=
  (W7_in1 m ρ c).symm.trans (W7_main_arg7 m ρ c)
theorem V6_arg3 (c : Dev nD) : V6 m ρ c main_arg3 = m ((c : Thread nD τ).loc main_arg3) :=
  (W7_in2 m ρ c).symm.trans (W7_main_arg3 m ρ c)

theorem V5_arg2 (c : Dev nD) : V5 m ρ c main_arg2 = m ((c : Thread nD τ).loc main_arg2) :=
  (W6_in0 m ρ c).symm.trans ((W7_of_ne m ρ c main_arg2 (by decide)).symm.trans (W7_main_arg2 m ρ c))
theorem V5_arg6 (c : Dev nD) : V5 m ρ c main_arg6 = m ((c : Thread nD τ).loc main_arg6) :=
  (W6_in1 m ρ c).symm.trans ((W7_of_ne m ρ c main_arg6 (by decide)).symm.trans (W7_main_arg6 m ρ c))
theorem V5_arg3 (c : Dev nD) : V5 m ρ c main_arg3 = m ((c : Thread nD τ).loc main_arg3) :=
  (W6_in2 m ρ c).symm.trans (V6_arg3 m ρ c)

/-! ## The two row aggregations -/

/-- The item result: the aggregation of the item rows. -/
theorem item (c : Dev nD) :
    W7 m ρ c (Proc.devRef .tc main_v33)
      = attn (N := 50000) (m ((c : Thread nD τ).loc main_arg1)) (m ((c : Thread nD τ).loc main_arg7)) (m ((c : Thread nD τ).loc main_arg3)) := by
  refine (W7_arr m ρ c 3).trans ((Cert.KernelIdeal.ItemRows.final (V6 m ρ) c).trans ?_)
  rw [V6_arg1, V6_arg7, V6_arg3]

/-- The user result: the aggregation of the user rows. -/
theorem user (c : Dev nD) :
    W7 m ρ c (Proc.devRef .tc main_v32)
      = attn (N := 100000) (m ((c : Thread nD τ).loc main_arg2)) (m ((c : Thread nD τ).loc main_arg6)) (m ((c : Thread nD τ).loc main_arg3)) := by
  refine (W7_of_ne m ρ c main_v32 (by decide)).trans ((W6_arr m ρ c 3).trans ((Cert.KernelIdeal.UserRows.final (V5 m ρ) c).trans ?_))
  rw [V5_arg2, V5_arg6, V5_arg3]

end Cert.KernelIdeal.Results

end
-- ==== Proof.EdgeProduct.lean ====
/-
  Region 0 (the edge path): the first pallas_call multiplies, block of 10000 rows by block, the gathered entity rows by
  the gathered relation rows; its 125 write-backs tile the result, which therefore ends as the elementwise product of
  the two arrays the region finds.
-/
import proofs.«178166_j15212774163210_1_alg».proof.Proof.Gen.KernelIdeal.Frame
import Idealize.ShloMosaic.Lib.Pipeline.Value
import Idealize.ShloMosaic.Lib.ValueIdx

set_option maxRecDepth 16384

noncomputable section

namespace Cert.KernelIdeal.EdgeProduct

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks (the two casts are to the same shape). -/
theorem pay_eq (x0 x1 : Vec Ideal S10000x64 .f32) : k0_pay1 (F := Ideal) x0 x1 = mulf x0 x1 := by
  unfold k0_pay1
  simp only [shapeCast_self]

/-- The product of the two arrays the region finds, entry by entry. -/
abbrev prod (c : Dev nD) : S1250000x64.Idx → EReal := fun i =>
  FloatOps.mulf (F := Ideal) (φ := .f32) (V c main_v12 i) (V c main_v19 i)

/-- The printed index maps over the grid: all three windows sit at block `t` of axis 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem N_eq : cfg0.N = 125 := rfl

/-- WHAT POINT `t` WRITES BACK is block `t` of the product. -/
theorem flushed_eq (c : Dev nD) (t : Fin cfg0.N) :
    (dat0 V c).flushed 2 t = ((cfg0.win 2).blk t).view.read (Elt Ideal) (prod V c) := by
  show (cfg0.win 2).cut (grid0.coords t) ((dat0 V c).after 2 t) = _
  rw [after0_2]
  unfold out0_2
  rw [View.canon_unit_zero hz]
  simp only [View.ld_unit_zero (S := S10000x64) hz]
  rw [pay_eq]
  obtain ⟨e0, e1, e2, e3, e4, e5⟩ := idx_facts t
  funext j
  show FloatOps.mulf (F := Ideal) (φ := .f32) (V c main_v12 (((cfg0.win 0).blk t).view.emb j)) (V c main_v19 (((cfg0.win 1).blk t).view.emb j))
    = FloatOps.mulf (F := Ideal) (φ := .f32) (V c main_v12 (((cfg0.win 2).blk t).view.emb j)) (V c main_v19 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; rw [e0, e4]
    | ⟨1, _⟩ => show win0_0.index t (1 : Fin 2) * 64 + 1 * (j 1).val = win0_2.index t (1 : Fin 2) * 64 + 1 * (j 1).val; rw [e1, e5]
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; rw [e2, e4]
    | ⟨1, _⟩ => show win0_1.index t (1 : Fin 2) * 64 + 1 * (j 1).val = win0_2.index t (1 : Fin 2) * 64 + 1 * (j 1).val; rw [e3, e5]
  rw [h0, h1]

/-- An index of the array is in point `t`'s block iff each coordinate is in the block's range on its axis. -/
theorem mem_blk (t : Fin cfg0.N) (i : S1250000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v20).slice (win0_2.rect t)).set ↔ _
  rw [View.set_slice_whole, Rect.mem_set_unit]
  exact Iff.rfl

/-- Every row is in the block of the point `row / 10000`. -/
theorem cover (i : S1250000x64.Idx) :
    ∃ t : Fin cfg0.N, (cfg0.win 2).flush t = true ∧ i ∈ ((cfg0.win 2).blk t).view.set := by
  have hi0 : (i 0).val < 1250000 := (i 0).isLt
  have hi1 : (i 1).val < 64 := (i 1).isLt
  have ht : (i 0).val / 10000 < cfg0.N := by rw [N_eq]; omega
  refine ⟨⟨(i 0).val / 10000, ht⟩, flush0_2 _, ?_⟩
  rw [mem_blk]
  obtain ⟨-, -, -, -, e4, e5⟩ := idx_facts ⟨(i 0).val / 10000, ht⟩
  intro a
  match a with
  | ⟨0, _⟩ =>
    show win0_2.index ⟨(i 0).val / 10000, ht⟩ 0 * 10000 ≤ (i 0).val ∧ (i 0).val < win0_2.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ 1 * 64 ≤ (i 1).val ∧ (i 1).val < win0_2.index ⟨(i 0).val / 10000, ht⟩ 1 * 64 + 64
    rw [e5]; omega

/-- THE RESULT ARRAY after the region: the product of the two gathered arrays. -/
theorem final (c : Dev nD) : (dat0 V c).arrAt 2 cfg0.N = prod V c :=
  (dat0 V c).arrAt_eq_of_cover 2 _ (fun t _ => flushed_eq V c t) (cover)

end Cert.KernelIdeal.EdgeProduct

end
-- ==== Proof.KernelEntity.lean ====
/-
  The idealized kernel's entity result as a function of its arguments.

  The fold of @main's segments is read at the entity result's buffer: the host's scatter-mean (scatter-add of the rows by
  head entity, the heads' counts clipped at one, the quotient) applied to the first region's product of the two gathered
  arrays. It is stated against the reference's own stage functions (its generated read-back, `Read.val_main_v*`): the
  kernel's host stretches are the same operations in the same order, on the same values.
-/
import proofs.«178166_j15212774163210_1_alg».proof.Proof.RunNamed
import proofs.«178166_j15212774163210_1_alg».proof.Proof.EdgeProduct
import proofs.«178166_j15212774163210_1_alg».proof.Proof.Gen.ReferenceIdeal.Read
import Idealize.ShloMosaic.Lib.StableHlo.Run

set_option maxRecDepth 16384

noncomputable section

namespace Cert.KernelIdeal.Results

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The values the first region and the host stretches after it read -/

/-- The gathered entity rows the first region reads are the reference's gathered entity rows. -/
theorem gathered_entity (c : Dev nD) :
    V1 m ρ c main_v12 = Cert.ReferenceIdeal.Read.val_main_v19 (F := Ideal) (m ((c : Thread nD τ).loc main_arg0)) (m ((c : Thread nD τ).loc main_arg4)) := by
  show StableHlo.after hostOps0 (W0 m ρ c) (Proc.devRef .tc main_v12) = _
  after_results_simp
  rfl

/-- The gathered relation rows likewise. -/
theorem gathered_relation (c : Dev nD) :
    V1 m ρ c main_v19 = Cert.ReferenceIdeal.Read.val_main_v12 (F := Ideal) (m ((c : Thread nD τ).loc main_arg5)) (m ((c : Thread nD τ).loc main_arg8)) := by
  show StableHlo.after hostOps0 (W0 m ρ c) (Proc.devRef .tc main_v19) = _
  after_results_simp
  rfl

/-- The head indices survive the first region. -/
theorem heads (c : Dev nD) :
    W2 m ρ c (Proc.devRef .tc main_v1) = Cert.ReferenceIdeal.Read.val_main_v1 (F := Ideal) (m ((c : Thread nD τ).loc main_arg4)) := by
  refine (W2_of_ne m ρ c main_v1 (by decide)).trans ?_
  show StableHlo.after hostOps0 (W0 m ρ c) (Proc.devRef .tc main_v1) = _
  after_results_simp
  rfl

/-- The first region's result is the reference's product of the two gathered arrays. -/
theorem products (c : Dev nD) :
    W2 m ρ c (Proc.devRef .tc main_v20)
      = Cert.ReferenceIdeal.Read.val_main_v20 (F := Ideal) (m ((c : Thread nD τ).loc main_arg0)) (m ((c : Thread nD τ).loc main_arg4))
          (m ((c : Thread nD τ).loc main_arg5)) (m ((c : Thread nD τ).loc main_arg8)) := by
  refine (W2_arr m ρ c 2).trans ((Cert.KernelIdeal.EdgeProduct.final (V1 m ρ) c).trans ?_)
  show (fun i => FloatOps.mulf (F := Ideal) (φ := .f32) (V1 m ρ c main_v12 i) (V1 m ρ c main_v19 i)) = _
  rw [gathered_entity, gathered_relation]
  rfl

/-! ## The host's scatter-mean after the first region -/

/-- The scatter-mean of update rows by head entity: the rows added into their head's row, each head's count clipped
    below at one, the quotient — the three host stretches between the first region and the second, as one function of
    the heads and of the update rows. -/
def scatterMean (head : IVec S1250000 32) (upd : FVec Ideal S1250000x64 .f32) : FVec Ideal S100000x64 .f32 :=
  Host.divf (F := Ideal)
    (Host.scatterAdd scatter_S100000x64_S1250000x1_S1250000x64_1_0_0_1
      (broadcastInDim S100000x64 ![] bcast_S_S100000x64 (constant (F := Ideal) S_ .f32 0x00000000#32))
      (broadcastInDim S1250000x1 ![0] bcast_S1250000_S1250000x1_0 head) upd)
    (broadcastInDim S100000x64 ![0, 1] bcast_S100000x1_S100000x64_0_1
      (broadcastInDim S100000x1 ![0] bcast_S100000_S100000x1_0
        (maximumf (broadcastInDim S100000 ![] bcast_S_S100000 (constant (F := Ideal) S_ .f32 0x3F800000#32))
          (Host.scatterAdd scatter_S100000_S1250000x1_S1250000_n_0_0_1
            (broadcastInDim S100000 ![] bcast_S_S100000 (constant (F := Ideal) S_ .f32 0x00000000#32))
            (broadcastInDim S1250000x1 ![0] bcast_S1250000_S1250000x1_0 head)
            (broadcastInDim S1250000 ![] bcast_S_S1250000 (constant (F := Ideal) S_ .f32 0x3F800000#32))))))

section Stretches
variable (Wx : Valuation τ sig (Elt Ideal))

/-- The first stretch: the rows scattered and added by head. -/
theorem sums_eq :
    StableHlo.after hostOps1 Wx (Proc.devRef .tc main_v23)
      = Host.scatterAdd (F := Ideal) scatter_S100000x64_S1250000x1_S1250000x64_1_0_0_1
          (broadcastInDim S100000x64 ![] bcast_S_S100000x64 (constant (F := Ideal) S_ .f32 0x00000000#32))
          (broadcastInDim (α := BitVec 32) S1250000x1 ![0] bcast_S1250000_S1250000x1_0 (Wx (Proc.devRef .tc main_v1)))
          (Wx (Proc.devRef .tc main_v20)) := by
  after_results_simp

/-- The first stretch: the heads' counts. -/
theorem counts_eq :
    StableHlo.after hostOps1 Wx (Proc.devRef .tc main_v27)
      = Host.scatterAdd (F := Ideal) scatter_S100000_S1250000x1_S1250000_n_0_0_1
          (broadcastInDim S100000 ![] bcast_S_S100000 (constant (F := Ideal) S_ .f32 0x00000000#32))
          (broadcastInDim (α := BitVec 32) S1250000x1 ![0] bcast_S1250000_S1250000x1_0 (Wx (Proc.devRef .tc main_v1)))
          (broadcastInDim S1250000 ![] bcast_S_S1250000 (constant (F := Ideal) S_ .f32 0x3F800000#32)) := by
  after_results_simp

/-- The first stretch: the clip's lower bound, one. -/
theorem one_eq :
    StableHlo.after hostOps1 Wx (Proc.devRef .tc main_cst_6) = constant (F := Ideal) S_ .f32 0x3F800000#32 := by
  after_results_simp

/-- The second stretch (the clip): the maximum of the bound and the counts. -/
theorem clip_eq :
    StableHlo.after hostOps1_1 Wx (Proc.devRef .tc main_v28)
      = maximumf (F := Ideal) (s := S100000) (φ := .f32)
          (broadcastInDim (α := Ideal .f32) S100000 ![] bcast_S_S100000 (Wx (Proc.devRef .tc main_cst_6)))
          (Wx (Proc.devRef .tc main_v27)) := by
  after_results_simp
  rfl

/-- The second stretch leaves the sums alone. -/
theorem clip_sums : StableHlo.after hostOps1_1 Wx (Proc.devRef .tc main_v23) = Wx (Proc.devRef .tc main_v23) := by
  after_results_simp

/-- The third stretch: the quotient of the sums by the clipped counts spread over the lanes. -/
theorem mean_eq :
    StableHlo.after hostOps1_2 Wx (Proc.devRef .tc main_v31)
      = Host.divf (F := Ideal) (s := S100000x64) (φ := .f32) (Wx (Proc.devRef .tc main_v23))
          (broadcastInDim (α := Ideal .f32) S100000x64 ![0, 1] bcast_S100000x1_S100000x64_0_1
            (broadcastInDim (α := Ideal .f32) S100000x1 ![0] bcast_S100000_S100000x1_0 (Wx (Proc.devRef .tc main_v28)))) := by
  after_results_simp

/-- From ANY contents at the first region's exit, the three host stretches leave in the entity result's buffer the
    scatter-mean of what the region's result buffer holds by what the heads' buffer holds. -/
theorem tail_eq :
    StableHlo.after hostOps1_2 (StableHlo.after hostOps1_1 (StableHlo.after hostOps1 Wx)) (Proc.devRef .tc main_v31)
      = scatterMean (Wx (Proc.devRef .tc main_v1)) (Wx (Proc.devRef .tc main_v20)) := by
  rw [mean_eq, clip_sums, clip_eq, sums_eq, counts_eq, one_eq]
  rfl

end Stretches

/-- The same function of the reference's heads and products is the reference's entity stage. -/
theorem scatterMean_ref (x0 : (⟨Cert.ReferenceIdeal.S100000x64, .f32⟩ : BufTy).Contents (Elt Ideal))
    (x4 : (⟨Cert.ReferenceIdeal.S2x1250000, .i32⟩ : BufTy).Contents (Elt Ideal))
    (x5 : (⟨Cert.ReferenceIdeal.S1250000, .i32⟩ : BufTy).Contents (Elt Ideal))
    (x8 : (⟨Cert.ReferenceIdeal.S16x64, .f32⟩ : BufTy).Contents (Elt Ideal)) :
    scatterMean (Cert.ReferenceIdeal.Read.val_main_v1 (F := Ideal) x4) (Cert.ReferenceIdeal.Read.val_main_v20 (F := Ideal) x0 x4 x5 x8)
      = Cert.ReferenceIdeal.Read.val_main_v31 (F := Ideal) x0 x4 x5 x8 := rfl

/-! ## The entity result -/

/-- The entity result: the reference's scatter-mean of those products by those heads. -/
theorem entity (c : Dev nD) :
    W7 m ρ c (Proc.devRef .tc main_v31)
      = Cert.ReferenceIdeal.Read.val_main_v31 (F := Ideal) (m ((c : Thread nD τ).loc main_arg0)) (m ((c : Thread nD τ).loc main_arg4))
          (m ((c : Thread nD τ).loc main_arg5)) (m ((c : Thread nD τ).loc main_arg8)) := by
  refine (W7_of_ne m ρ c main_v31 (by decide)).trans ((W6_of_ne m ρ c main_v31 (by decide)).trans ?_)
  refine (tail_eq (W2 m ρ c)).trans ?_
  rw [products, heads]
  exact scatterMean_ref _ _ _ _

end Cert.KernelIdeal.Results

end
-- ==== Proof.RefValue.lean ====
/-
  The idealized reference's two row aggregations, read row by row: its softmax chain over all rows (matrix product
  with the transposed aspects, row maximum, exponentials, row sums, quotient, row sum again) and its mixture product are,
  at each row, the aggregated row of Proof/AttnRows.lean.
-/
import proofs.«178166_j15212774163210_1_alg».proof.Proof.AttnRows
import proofs.«178166_j15212774163210_1_alg».proof.Proof.Gen.ReferenceIdeal.Read

set_option maxRecDepth 16384

noncomputable section

namespace Cert.ReferenceIdeal.Results

open Cert.ReferenceIdeal Cert.ReferenceIdeal.Gen Cert.AttnRows
open Idealize.ShloMosaic Idealize.ShloMosaic.TcCoe Idealize.SL.Sem Idealize.ShloMosaic.ValueIdx

/-- The user result's stage is the reference chain of Proof/AttnRows.lean at 100000 rows. -/
theorem user_stage (x2 : FVec Ideal (Rows 100000) .f32) (x3 : FVec Ideal Sq .f32) (x6 : FVec Ideal (Rows 100000) .f32) :
    Cert.ReferenceIdeal.Read.val_main_v63 (F := Ideal) x2 x3 x6
      = refBody (n := 100000) transposes_S64x64_S64x64_1_0 reducesTo_S100000x64_S100000_d1 h_S_ bcast_S_S100000
          bcast_S100000_S100000x1_0 bcast_S100000x1_S100000x64_0_1 x2 x3 x6 := rfl

/-- The user result: the aggregation of the user rows. -/
theorem user (x2 : FVec Ideal (Rows 100000) .f32) (x3 : FVec Ideal Sq .f32) (x6 : FVec Ideal (Rows 100000) .f32) :
    Cert.ReferenceIdeal.Read.val_main_v63 (F := Ideal) x2 x3 x6 = attn (N := 100000) x2 x6 x3 := by
  rw [user_stage]
  funext i
  obtain ⟨r, q, rfl⟩ : ∃ (r : Fin 100000) (q : Fin 64), i = ix2 r q := ⟨i 0, i 1, eq_ix2 i⟩
  exact refBody_apply _ _ (by decide) _ _ _ _ x2 x3 x6 r q

/-- The item result's stage is the same chain at 50000 rows. -/
theorem item_stage (x1 : FVec Ideal (Rows 50000) .f32) (x3 : FVec Ideal Sq .f32) (x7 : FVec Ideal (Rows 50000) .f32) :
    Cert.ReferenceIdeal.Read.val_main_v69 (F := Ideal) x1 x3 x7
      = refBody (n := 50000) transposes_S64x64_S64x64_1_0 reducesTo_S50000x64_S50000_d1 h_S_ bcast_S_S50000
          bcast_S50000_S50000x1_0 bcast_S50000x1_S50000x64_0_1 x1 x3 x7 := rfl

/-- The item result: the aggregation of the item rows. -/
theorem item (x1 : FVec Ideal (Rows 50000) .f32) (x3 : FVec Ideal Sq .f32) (x7 : FVec Ideal (Rows 50000) .f32) :
    Cert.ReferenceIdeal.Read.val_main_v69 (F := Ideal) x1 x3 x7 = attn (N := 50000) x1 x7 x3 := by
  rw [item_stage]
  funext i
  obtain ⟨r, q, rfl⟩ : ∃ (r : Fin 50000) (q : Fin 64), i = ix2 r q := ⟨i 0, i 1, eq_ix2 i⟩
  exact refBody_apply _ _ (by decide) _ _ _ _ x1 x3 x7 r q

end Cert.ReferenceIdeal.Results

end
-- ==== Proof.lean ====
/-
  The certificate of the neighbourhood aggregator: a Pallas program of three kernels against its jnp reference, over the
  extended reals.

  The program returns three arrays. Two are row aggregations — for every user row and every item row, the row's
  mixture of the aspects scaled by the total mass of the softmax of its scores, plus the mixture itself — which the
  kernel computes block of rows by block in two pallas_calls (4000 and 2000 rows a grid point) and the reference on the
  whole arrays; a row's result depends on that row alone, so the blocks' write-backs tile the reference's array
  (Proof/AttnRows.lean: the row's value and both programs' operations read at a row; Proof/UserRows.lean,
  Proof/ItemRows.lean: the tiling; Proof/RefValue.lean: the reference). The third is the scatter-mean by head entity of
  the products of gathered entity and relation rows: the kernel takes the products in a pallas_call (Proof/EdgeProduct.lean)
  between host operations that are the reference's own, applied to the same values (Proof/KernelEntity.lean; the two
  aggregations read off the run in Proof/KernelValue.lean, the run itself in Proof/RunNamed.lean).
  No law of the extended reals beyond re-indexing finite sums is used, so the finiteness of the inputs is never opened.
  The three frames are the generated ones (the reference's: its generated run with the results dropped); the ideal pass
  rewrote nothing, so `preserves` is trivial.
-/
import proofs.«178166_j15212774163210_1_alg».proof.Defs
import proofs.«178166_j15212774163210_1_alg».proof.Proof.Gen.Kernel
import proofs.«178166_j15212774163210_1_alg».proof.Proof.Gen.Kernel.Frame
import proofs.«178166_j15212774163210_1_alg».proof.Proof.Gen.KernelIdeal
import proofs.«178166_j15212774163210_1_alg».proof.Proof.Gen.KernelIdeal.Frame
import proofs.«178166_j15212774163210_1_alg».proof.Proof.Gen.ReferenceIdeal
import proofs.«178166_j15212774163210_1_alg».proof.Proof.Gen.ReferenceIdeal.Run
import proofs.«178166_j15212774163210_1_alg».proof.Proof.Gen.ReferenceIdeal.Read
import proofs.«178166_j15212774163210_1_alg».proof.Proof.Gen.Pre_finite_inputs
import proofs.«178166_j15212774163210_1_alg».proof.Proof.RunNamed
import proofs.«178166_j15212774163210_1_alg».proof.Proof.KernelValue
import proofs.«178166_j15212774163210_1_alg».proof.Proof.KernelEntity
import proofs.«178166_j15212774163210_1_alg».proof.Proof.RefValue
import Idealize.ShloMosaic.Adequacy
import Idealize.ShloMosaic.Init

noncomputable section

namespace Cert.Proof

open Idealize.ShloMosaic Idealize.SL.Sem Cert.AttnRows

theorem frame_kernel : Cert.frame_Kernel := fun m ρ _ => Cert.Kernel.Gen.frame m ρ

theorem frame_kernelIdeal : Cert.frame_KernelIdeal := fun m ρ _ => Cert.KernelIdeal.Gen.frame m ρ

/-- The reference's frame: its generated run, the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Both programs end with the item rows' aggregation, the reference's scatter-mean of the gathered products, and the
    user rows' aggregation, of arguments that agree. -/
theorem algebraic : Cert.algebraic_KernelIdeal_ReferenceIdeal := by
  intro m ρ m' ρ' _ hagree
  refine ⟨fun c => attn (N := 50000) (m ((c.tc : Thread Cert.KernelIdeal.nD Cert.KernelIdeal.τ).loc Cert.KernelIdeal.main_arg1))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg3)),
      fun c => Cert.ReferenceIdeal.Read.val_main_v31 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg8)),
      fun c => attn (N := 100000) (m ((c.tc : Thread Cert.KernelIdeal.nD Cert.KernelIdeal.τ).loc Cert.KernelIdeal.main_arg2))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg3)), ?_, ?_⟩
  · exact (θ_run Cert.KernelIdeal.defs _ _).mono (fun r h c =>
      ⟨(h c).1.trans (Cert.KernelIdeal.Results.item m ρ c),
       (h c).2.1.trans (Cert.KernelIdeal.Results.entity m ρ c),
       (h c).2.2.1.trans (Cert.KernelIdeal.Results.user m ρ c),
       (h c).2.2.2⟩) (Cert.KernelIdeal.Named.run_named (F := Ideal) m ρ)
  · refine (θ_run Cert.ReferenceIdeal.defs _ _).mono (fun r h c => ?_) (Cert.ReferenceIdeal.Value.run (F := Ideal) m' ρ')
    obtain ⟨a0, a1, a2, a3, a4, a5, a6, a7, a8⟩ := hagree c
    refine ⟨(h c).1.trans ?_, (h c).2.1.trans ?_, (h c).2.2.1.trans ?_, (h c).2.2.2⟩
    · rw [a1, a3, a7]
      exact (Cert.ReferenceIdeal.Read.val_main_v69_eq _ _ _).trans (Cert.ReferenceIdeal.Results.item _ _ _)
    · rw [a0, a4, a5, a8]
      exact Cert.ReferenceIdeal.Read.val_main_v31_eq _ _ _ _
    · rw [a2, a3, a6]
      exact (Cert.ReferenceIdeal.Read.val_main_v63_eq _ _ _).trans (Cert.ReferenceIdeal.Results.user _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
